-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S50000x128 .f32) (main_arg1 : IVec S600000 32) (main_arg2 : IVec S600000 32) (main_arg3 : FVec F S600000 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg3
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S50000x128 : Shape := ⟨2, ![50000, 128]⟩
abbrev S600000 : Shape := ⟨1, ![600000]⟩
abbrev S128x128 : Shape := ⟨2, ![128, 128]⟩
abbrev S600000x1 : Shape := ⟨2, ![600000, 1]⟩
abbrev S_ : Shape := ⟨0, ![]⟩
abbrev S600000x128 : Shape := ⟨2, ![600000, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 22
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S128x128, .f32⟩
  | .hbm, ⟨5, _⟩ => ⟨S600000x1, .f32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S600000x128, .f32⟩
  | .hbm, ⟨16, _⟩ => ⟨S600000x128, .f32⟩
  | .hbm, ⟨17, _⟩ => ⟨S_, .f32⟩
  | .hbm, ⟨18, _⟩ => ⟨S50000x128, .f32⟩
  | .hbm, ⟨19, _⟩ => ⟨S600000x1, .i32⟩
  | .hbm, ⟨20, _⟩ => ⟨S50000x128, .f32⟩
  | .hbm, ⟨21, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  reduces_S2000x128_S2000 : S2000x128.Reduces [1] S2000
  shapeCasts_S2000_S2000x1 : S2000.ShapeCasts S2000x1
  broadcasts_S2000x1_S2000x128 : S2000x1.Broadcasts S2000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v12) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S600000x1 : Shape := ⟨2, ![600000, 1]⟩
abbrev S_ : Shape := ⟨0, ![]⟩
abbrev S600000x128 : Shape := ⟨2, ![600000, 128]⟩
abbrev S50000 : Shape := ⟨1, ![50000]⟩
abbrev S50000x1 : Shape := ⟨2, ![50000, 1]⟩

abbrev nBuf : Space → Nat
  | .hbm => 35
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S128x128, .f32⟩
  | .hbm, ⟨5, _⟩ => ⟨S600000x1, .f32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S600000x128, .f32⟩
  | .hbm, ⟨16, _⟩ => ⟨S600000x128, .f32⟩
  | .hbm, ⟨17, _⟩ => ⟨S_, .f32⟩
  | .hbm, ⟨18, _⟩ => ⟨S50000x128, .f32⟩
  | .hbm, ⟨19, _⟩ => ⟨S600000x1, .i32⟩
  | .hbm, ⟨20, _⟩ => ⟨S50000x128, .f32⟩
  | .hbm, ⟨21, _⟩ => ⟨S50000x128, .f32⟩
  | .hbm, ⟨22, _⟩ => ⟨S_, .f32⟩
  | .hbm, ⟨23, _⟩ => ⟨S50000x128, .f32⟩
  | .hbm, ⟨24, _⟩ => ⟨S50000x128, .f32⟩
  | .hbm, ⟨25, _⟩ => ⟨S50000x128, .f32⟩
  | .hbm, ⟨26, _⟩ => ⟨S_, .f32⟩
  | .hbm, ⟨27, _⟩ => ⟨S50000, .f32⟩
  | .hbm, ⟨28, _⟩ => ⟨S50000x1, .f32⟩
  | .hbm, ⟨29, _⟩ => ⟨S50000x1, .f32⟩
  | .hbm, ⟨30, _⟩ => ⟨S_, .f32⟩
  | .hbm, ⟨31, _⟩ => ⟨S50000x1, .f32⟩
  | .hbm, ⟨32, _⟩ => ⟨S50000x1, .f32⟩
  | .hbm, ⟨33, _⟩ => ⟨S50000x128, .f32⟩
  | .hbm, ⟨34, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RowNorm.lean ====
/-
  The rows of a matrix product, clipped below at zero and scaled to unit Euclidean length.

  For A of shape [a, k] and W of shape [k, b], over the extended reals:
    act A W p q  =  max (∑ κ < k, A (p, κ) · W (κ, q)) 0
    len A W p    =  max (sqrt (∑ n < b, (act A W p n)²)) ε
    normed A W (p, q)  =  act A W p q / len A W p
  where 0 and ε are kept as the f32 words 0x00000000 and 0x2B8CBCCC (ε is the float nearest 1e-12): both programs
  carry the same two words, so neither is ever evaluated.

  Everything here reads A through its row p alone. So a band of rows of A, taken as a matrix of its own, gives the
  same band of rows of the result: that is why computing the result band by band is computing it whole.
-/
import Idealize.ShloMosaic.Lib.ValueIdx
import Idealize.ShloMosaic.PureOps.Ideal.Laws

noncomputable section

namespace Cert.RowNorm

open Idealize.ShloMosaic Idealize.ShloMosaic.ValueIdx

variable {a a' k b : ℕ}

/-- Entry (p, q) of the product A · W, clipped below at zero. -/
def act (A : (⟨2, ![a, k]⟩ : Shape).Idx → EReal) (W : (⟨2, ![k, b]⟩ : Shape).Idx → EReal) (p : Fin a) (q : Fin b) : EReal :=
  max (∑ κ : Fin k, A (ix2 p κ) * W (ix2 κ q)) (Ideal.ofBits .f32 0x00000000#32)

/-- The Euclidean length of row p of the clipped product, bounded below by ε. -/
def len (A : (⟨2, ![a, k]⟩ : Shape).Idx → EReal) (W : (⟨2, ![k, b]⟩ : Shape).Idx → EReal) (p : Fin a) : EReal :=
  max (Ideal.sqrt (∑ n : Fin b, act A W p n * act A W p n)) (Ideal.ofBits .f32 0x2B8CBCCC#32)

/-- The clipped product with every row divided by its length. -/
def normed (A : (⟨2, ![a, k]⟩ : Shape).Idx → EReal) (W : (⟨2, ![k, b]⟩ : Shape).Idx → EReal) :
    (⟨2, ![a, b]⟩ : Shape).Idx → EReal :=
  fun i => Ideal.div (act A W (i 0) (i 1)) (len A W (i 0))

/-- `act` at row p reads row p of A only: two left matrices, of any heights, that agree on one row each give the same
    clipped entries along those rows. -/
theorem act_row (A : (⟨2, ![a, k]⟩ : Shape).Idx → EReal) (A' : (⟨2, ![a', k]⟩ : Shape).Idx → EReal)
    (W W' : (⟨2, ![k, b]⟩ : Shape).Idx → EReal) (p : Fin a) (p' : Fin a')
    (hA : ∀ κ : Fin k, A' (ix2 p' κ) = A (ix2 p κ)) (hW : W' = W) (q : Fin b) :
    act A' W' p' q = act A W p q := by
  subst hW
  unfold act
  exact congrArg (max · _) (Finset.sum_congr rfl fun κ _ => by rw [hA κ])

/-- So does the row's length. -/
theorem len_row (A : (⟨2, ![a, k]⟩ : Shape).Idx → EReal) (A' : (⟨2, ![a', k]⟩ : Shape).Idx → EReal)
    (W W' : (⟨2, ![k, b]⟩ : Shape).Idx → EReal) (p : Fin a) (p' : Fin a')
    (hA : ∀ κ : Fin k, A' (ix2 p' κ) = A (ix2 p κ)) (hW : W' = W) :
    len A' W' p' = len A W p := by
  unfold len
  exact congrArg (fun s => max (Ideal.sqrt s) _) (Finset.sum_congr rfl fun n _ => by rw [act_row A A' W W' p p' hA hW n])

/-- A BAND OF ROWS STANDS FOR THE WHOLE: the normalised product of A' at (p', q) is that of A at (p, q) whenever row p'
    of A' is row p of A. -/
theorem normed_row (A : (⟨2, ![a, k]⟩ : Shape).Idx → EReal) (A' : (⟨2, ![a', k]⟩ : Shape).Idx → EReal)
    (W W' : (⟨2, ![k, b]⟩ : Shape).Idx → EReal) (p : Fin a) (p' : Fin a') (q : Fin b)
    (hA : ∀ κ : Fin k, A' (ix2 p' κ) = A (ix2 p κ)) (hW : W' = W) :
    normed A' W' (ix2 p' q) = normed A W (ix2 p q) := by
  show Ideal.div (act A' W' p' q) (len A' W' p') = Ideal.div (act A W p q) (len A W p)
  rw [act_row A A' W W' p p' hA hW q, len_row A A' W W' p p' hA hW]

end Cert.RowNorm

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.KernelBody.lean ====
/-
  The kernel body at one entry of its output block.

  The body loads a band x of 2000 rows of the aggregated features and the whole weight matrix w, and stores
    y / max (sqrt (row sums of y²)) ε     with   y = max (x · w) 0,
  the product taken after both operands are narrowed to bf16 (no change of value over the extended reals) and
  accumulated from zero, so that entry (p, q) of it is the plain sum ∑ κ < 128, x (p, κ) · w (κ, q).
  The row sum is a lane reduction from zero, entry p of it the sum over the 128 columns; it is re-laid as a column,
  and the column is spread back over the 128 lanes for the division. Hence entry (p, q) of the stored block is
  RowNorm.normed x w (p, q).
-/
import proofs.«150743_j39771397161525_1_alg».proof.Proof.Gen.KernelIdeal.Skeleton
import proofs.«150743_j39771397161525_1_alg».proof.Proof.RowNorm
import proofs.«150743_j39771397161525_1_alg».proof.Proof.LibPlainDot
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx

/-! ## Two layout steps at an index: a vector re-laid as a column, a column spread over the lanes -/

/-- An `[a]` vector cast to an `[a, 1]` column reads, at `(i, u)`, the vector at `i`. -/
theorem shapeCast_col {a : ℕ} (x : (⟨1, ![a]⟩ : Shape).Idx → EReal) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)` (for `a ≠ 1`, so that the first
    axis is not itself a unit axis). -/
theorem broadcastTo_col {a b : ℕ} (ha : a ≠ 1) (x : (⟨2, ![a, 1]⟩ : Shape).Idx → EReal)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ fun c => match c with
    | ⟨0, _⟩ => by show i.val = if a = 1 then 0 else i.val; rw [if_neg ha]
    | ⟨1, _⟩ => by show 0 = if (1 : ℕ) = 1 then 0 else j.val; rw [if_pos rfl]

/-! ## The lane sum of a block's rows -/

/-- A lane reduction from zero over axis 1 of a `[2000, 128]` block, at row `p`, is the sum of that row's 128 entries. -/
theorem rowsum_apply (src : FVec Ideal S2000x128 .f32) (hφ : FKind.Formats .f32)
    (hacc : (0x00000000#32 : BitVec 32) = FKind.add.neutral .f32 hφ) (p : Fin 2000) :
    multiReduction .add [1] S2000 src 0x00000000#32 reduces_S2000x128_S2000 hφ hacc (ix1 p) = ∑ n : Fin 128, src (ix2 p n) := by
  refine (Ideal.multiReduction_add_single src 0x00000000#32 reduces_S2000x128_S2000 hφ hacc (ix1 p)).trans ?_
  refine Finset.sum_congr rfl fun n _ => congrArg src (funext fun c => Fin.ext ?_)
  match c with
  | ⟨0, _⟩ => rfl
  | ⟨1, _⟩ => rfl

/-! ## The two halves of the body -/

/-- The body's product is a plain one: rows of the left operand against columns of the right, no batch axis. -/
theorem dot_plain : Cert.PlainDot.Plain dot_S2000x128_S128x128_S2000x128_1_0_0_1_n_n := ⟨rfl, rfl, rfl, rfl, rfl, rfl⟩

/-- The product of the loaded blocks, both narrowed to bf16, accumulated from zero and clipped below at zero. -/
abbrev clipped (x0 : Vec Ideal S2000x128 .f32) (x1 : Vec Ideal S128x128 .f32) : FVec Ideal S2000x128 .f32 :=
  maximumf
    (matmul dot_S2000x128_S128x128_S2000x128_1_0_0_1_n_n none
      (truncf .bf16 (shapeCast S2000x128 x0 shapeCasts_S2000x128_S2000x128) bitsLt_bf16_f32)
      (truncf .bf16 x1 bitsLt_bf16_f32) (constant S2000x128 .f32 0x00000000#32))
    (broadcast S2000x128 (FloatOps.ofBits .f32 0x00000000#32))

/-- Entry (p, q) of it: the narrowing is the identity on extended reals and the accumulator is zero, so it is the
    clipped sum ∑ κ, x0 (p, κ) · x1 (κ, q). -/
theorem clipped_apply (x0 : Vec Ideal S2000x128 .f32) (x1 : Vec Ideal S128x128 .f32) (p : Fin 2000) (q : Fin 128) :
    clipped x0 x1 (ix2 p q) = Cert.RowNorm.act x0 x1 p q := by
  show max (matmul dot_S2000x128_S128x128_S2000x128_1_0_0_1_n_n none
      (truncf .bf16 (shapeCast S2000x128 x0 shapeCasts_S2000x128_S2000x128) bitsLt_bf16_f32)
      (truncf .bf16 x1 bitsLt_bf16_f32) (constant S2000x128 .f32 0x00000000#32) (ix2 p q)) (Ideal.ofBits .f32 0x00000000#32)
    = max (∑ κ : Fin 128, x0 (ix2 p κ) * x1 (ix2 κ q)) (Ideal.ofBits .f32 0x00000000#32)
  refine congrArg (max · _) ?_
  refine (Cert.PlainDot.matmul_zero_apply dot_plain rfl rfl none _ _ p q).trans ?_
  refine Finset.sum_congr rfl fun κ _ => ?_
  show shapeCast S2000x128 x0 shapeCasts_S2000x128_S2000x128 (ix2 p κ) * x1 (ix2 κ q) = x0 (ix2 p κ) * x1 (ix2 κ q)
  rw [shapeCast_self]

/-- The body's tail over ANY block `Y`: each entry divided by its row's Euclidean length, the length bounded below
    by ε. The row sum is the lane reduction, re-laid as a column and spread back over the lanes. -/
theorem rownorm_apply (Y : FVec Ideal S2000x128 .f32) (hφ : FKind.Formats .f32)
    (hacc : (0x00000000#32 : BitVec 32) = FKind.add.neutral .f32 hφ) (p : Fin 2000) (q : Fin 128) :
    divf Y (broadcastTo S2000x128
        (maximumf
          (sqrt (shapeCast S2000x1 (multiReduction .add [1] S2000 (mulf Y Y) 0x00000000#32 reduces_S2000x128_S2000 hφ hacc)
            shapeCasts_S2000_S2000x1))
          (broadcast S2000x1 (FloatOps.ofBits .f32 0x2B8CBCCC#32)))
        broadcasts_S2000x1_S2000x128) (ix2 p q)
      = Ideal.div (Y (ix2 p q))
          (max (Ideal.sqrt (∑ n : Fin 128, Y (ix2 p n) * Y (ix2 p n))) (Ideal.ofBits .f32 0x2B8CBCCC#32)) := by
  refine (divf_apply _ _ (ix2 p q)).trans (congrArg (Ideal.div _) ?_)
  refine (broadcastTo_col (by decide) _ broadcasts_S2000x1_S2000x128 p q).trans ?_
  show max (Ideal.sqrt (shapeCast S2000x1 (multiReduction .add [1] S2000 (mulf Y Y) 0x00000000#32 reduces_S2000x128_S2000 hφ hacc)
      shapeCasts_S2000_S2000x1 (ix2 p (0 : Fin 1)))) (Ideal.ofBits .f32 0x2B8CBCCC#32) = _
  refine congrArg (fun s => max (Ideal.sqrt s) _) ?_
  refine (shapeCast_col _ shapeCasts_S2000_S2000x1 p 0).trans ?_
  exact rowsum_apply (mulf Y Y) hφ hacc p

/-! ## The stored block -/

/-- ENTRY (p, q) OF THE STORED BLOCK is the clipped, row-normalised product of the two loaded blocks at (p, q). -/
theorem pay_apply (x0 : Vec Ideal S2000x128 .f32) (x1 : Vec Ideal S128x128 .f32) (p : Fin 2000) (q : Fin 128) :
    k0_pay1 (F := Ideal) x0 x1 (ix2 p q) = Cert.RowNorm.normed x0 x1 (ix2 p q) := by
  unfold k0_pay1
  dsimp only
  refine (rownorm_apply (clipped x0 x1) _ _ p q).trans ?_
  show Ideal.div (clipped x0 x1 (ix2 p q))
      (max (Ideal.sqrt (∑ n : Fin 128, clipped x0 x1 (ix2 p n) * clipped x0 x1 (ix2 p n))) (Ideal.ofBits .f32 0x2B8CBCCC#32))
    = Ideal.div (Cert.RowNorm.act x0 x1 p q) (Cert.RowNorm.len x0 x1 p)
  unfold Cert.RowNorm.len
  rw [clipped_apply x0 x1 p q]
  exact congrArg (fun s => Ideal.div _ (max (Ideal.sqrt s) _)) (Finset.sum_congr rfl fun n _ => by rw [clipped_apply x0 x1 p n])

end Cert.KernelIdeal.Body

end
-- ==== Proof.KernelArray.lean ====
/-
  From the kernel's blocks to its result array.

  The grid has 25 points. At point t the region stages rows [2000·t, 2000·t + 2000) of the aggregated features (all 128
  columns), the whole weight matrix, and writes back the same band of rows of the result. By the body's value at an
  entry and because the clipped, row-normalised product reads the left matrix through one row only, what point t writes
  back is band t of ONE function of the two whole arrays. The 25 bands tile the 50000 rows, so after the run the result
  array is that function everywhere.
-/
import proofs.«150743_j39771397161525_1_alg».proof.Proof.Gen.KernelIdeal.Value
import proofs.«150743_j39771397161525_1_alg».proof.Proof.KernelBody

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The aggregated features as the region finds them (the host operations before the region wrote them). -/
abbrev agg (c : Dev nD) : (⟨2, ![50000, 128]⟩ : Shape).Idx → EReal := V m c main_v12
/-- The weights as the region finds them. -/
abbrev wts (c : Dev nD) : (⟨2, ![128, 128]⟩ : Shape).Idx → EReal := V m c main_arg4

/-- The band of features and the weights the body is called with at point `t`, at their literal shapes. -/
abbrev band (c : Dev nD) (t : Fin cfg0.N) : Vec Ideal S2000x128 .f32 := iblk m c 0 t
abbrev wblk (c : Dev nD) (t : Fin cfg0.N) : Vec Ideal S128x128 .f32 := iblk m c 1 t

/-- The printed index maps over the 25 points: the features' and the result's block row is the point's number, every
    other block coordinate is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the band at point t is row 2000·t + p of the aggregated features. -/
theorem band_apply (c : Dev nD) (t : Fin cfg0.N) (p : Fin 2000) (κ : Fin 128) (r : Fin 50000) (hr : r.val = t.val * 2000 + p.val) :
    band m c t (ix2 p κ) = agg m c (ix2 r κ) := by
  obtain ⟨e00, e01, -, -, -, -⟩ := idx_facts t
  show V m c main_v12 (((cfg0.win 0).blk t).view.emb (ix2 p κ)) = V m c main_v12 (ix2 r κ)
  refine congrArg _ (funext fun a => Fin.ext ?_)
  match a with
  | ⟨0, _⟩ => show win0_0.index t (0 : Fin 2) * 2000 + 1 * p.val = r.val; omega
  | ⟨1, _⟩ => show win0_0.index t (1 : Fin 2) * 128 + 1 * κ.val = κ.val; omega

/-- The weights' one block is the whole matrix. -/
theorem wblk_eq (c : Dev nD) (t : Fin cfg0.N) : wblk m c t = wts m c := by
  obtain ⟨-, -, e10, e11, -, -⟩ := idx_facts t
  funext y
  show V m c main_arg4 (((cfg0.win 1).blk t).view.emb y) = V m c main_arg4 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The body's stored entry (p, q) at point `t` is entry (2000·t + p, q) of the clipped, row-normalised product of the
    two whole arrays: the body's value at an entry, then "a band of rows stands for the whole". -/
theorem body_at (c : Dev nD) (t : Fin cfg0.N) (p : Fin 2000) (q : Fin 128) (r : Fin 50000) (hr : r.val = t.val * 2000 + p.val) :
    k0_pay1 (F := Ideal) (band m c t) (wblk m c t) (ix2 p q) = Cert.RowNorm.normed (agg m c) (wts m c) (ix2 r q) :=
  (Body.pay_apply (band m c t) (wblk m c t) p q).trans
    (Cert.RowNorm.normed_row (a := 50000) (a' := 2000) (k := 128) (b := 128) (agg m c) (band m c t) (wts m c) (wblk m c t)
      r p q (fun κ => band_apply m c t p κ r hr) (wblk_eq m c t))

/-- WHAT POINT `t` WRITES BACK is band `t` of the clipped, row-normalised product of the two whole arrays. -/
theorem flushed_eq (c : Dev nD) (t : Fin cfg0.N) :
    (dats m 0 c).flushed 2 t = ((cfg0.win 2).blk t).view.read (Elt Ideal) (Cert.RowNorm.normed (agg m c) (wts m c)) := by
  rw [Value.flushed2]
  unfold out0_2
  rw [View.canon_unit_zero origin]
  simp only [View.ld_unit_zero (S := S2000x128) origin, View.ld_unit_zero (S := S128x128) origin]
  obtain ⟨-, -, -, -, e20, e21⟩ := idx_facts t
  have ht : t.val < 25 := lt_of_lt_of_eq t.isLt N_0
  funext j
  rw [View.read_apply]
  have hj0 : (j 0).val < 2000 := (j 0).isLt
  have hj1 : (j 1).val < 128 := (j 1).isLt
  -- the block's own index of j, and the array's index of j, by coordinates
  have hx : (cfg0.win 2).xinj (grid0.coords t) j = ix2 (⟨(j 0).val, hj0⟩ : Fin 2000) (⟨(j 1).val, hj1⟩ : Fin 128) :=
    funext fun a => Fin.ext (by match a with | ⟨0, _⟩ => rfl | ⟨1, _⟩ => rfl)
  have key := body_at m c t ⟨(j 0).val, hj0⟩ ⟨(j 1).val, hj1⟩ (⟨t.val * 2000 + (j 0).val, by omega⟩ : Fin 50000) rfl
  -- from here on the whole-array function is only applied at two indices: close it
  generalize Cert.RowNorm.normed (agg m c) (wts m c) = G at key ⊢
  refine Eq.trans (congrArg (k0_pay1 (F := Ideal) (band m c t) (wblk m c t)) hx) (key.trans ?_)
  refine congrArg G (funext fun a => Fin.ext ?_)
  match a with
  | ⟨0, _⟩ => show t.val * 2000 + (j 0).val = win0_2.index t (0 : Fin 2) * 2000 + 1 * (j 0).val; omega
  | ⟨1, _⟩ => show (j 1).val = win0_2.index t (1 : Fin 2) * 128 + 1 * (j 1).val; omega

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v13).slice (win0_2.rect t)).set ↔ _
  rw [View.set_slice_whole, Rect.mem_set_unit]
  exact Iff.rfl

/-- THE BANDS TILE THE ARRAY: row r lies in the band of point r / 2000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  have hlt : (i 0).val / 2000 < cfg0.N := by rw [hN]; omega
  obtain ⟨-, -, -, -, e20, e21⟩ := idx_facts ⟨(i 0).val / 2000, hlt⟩
  refine ⟨⟨(i 0).val / 2000, hlt⟩, flush0_2 _, ?_⟩
  rw [mem_blk]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    have e : win0_2.index ⟨(i 0).val / 2000, hlt⟩ (0 : Fin 2) = (i 0).val / 2000 := e20
    omega
  | ⟨1, _⟩ =>
    show win0_2.index ⟨(i 0).val / 2000, hlt⟩ (1 : Fin 2) * 128 ≤ (i 1).val ∧ (i 1).val < win0_2.index ⟨(i 0).val / 2000, hlt⟩ (1 : Fin 2) * 128 + 128
    omega

/-- THE RESULT ARRAY after the run: the clipped, row-normalised product of the aggregated features and the weights. -/
theorem final (c : Dev nD) : (dats m 0 c).arrAt 2 cfg0.N = Cert.RowNorm.normed (agg m c) (wts m c) :=
  (dats m 0 c).arrAt_eq_of_cover 2 (Cert.RowNorm.normed (agg m c) (wts m c)) (fun t _ => flushed_eq m c t) cover

/-- The frame run re-posted: the result array at that function, the arguments unchanged. -/
theorem run : θ_run defs (onTc (τ := τ) (main (F := Ideal))) ⟨m, fun _ => 0, ρ⟩ fun r => ∀ c : Dev nD,
      r.2.mem ((c : Thread nD τ).loc main_v13) = Cert.RowNorm.normed (agg m c) (wts m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefValue.lean ====
/-
  The reference's result, read stage by stage, is the clipped, row-normalised product of the aggregated features and
  the weights.

  After the gather and the scatter-add (the aggregated features, stage 12, left closed here: the kernel's program
  computes the same array by the same two operations), the reference takes the whole product with the weights,
  clips it below at zero, squares, sums each row from zero, takes the root, bounds it below by ε, spreads it over the
  row and divides. Entry (p, q) of the product is ∑ κ < 128, agg (p, κ) · W (κ, q); the row sum at p runs over that
  row's 128 clipped entries, and the zero it starts from adds nothing.
-/
import proofs.«150743_j39771397161525_1_alg».proof.Proof.Gen.ReferenceIdeal.Read
import proofs.«150743_j39771397161525_1_alg».proof.Proof.RowNorm

noncomputable section

namespace Cert.ReferenceIdeal.RefValue

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 x2 : (⟨S600000, .i32⟩ : BufTy).Contents (Elt Ideal))
  (x3 : (⟨S600000, .f32⟩ : BufTy).Contents (Elt Ideal)) (x4 : (⟨S128x128, .f32⟩ : BufTy).Contents (Elt Ideal))

/-- The aggregated features: each edge's source row scaled by the edge's value, summed into the edge's target row. -/
abbrev agg : (⟨2, ![50000, 128]⟩ : Shape).Idx → EReal := val_main_v12 (F := Ideal) x0 x1 x2 x3

/-- The weights, at the literal shape. -/
abbrev wts : (⟨2, ![128, 128]⟩ : Shape).Idx → EReal := x4

/-- The clipped product (stage 14) at (p, q): the host's product read as the sum over the contracted axis. -/
theorem clipped_apply (p : Fin 50000) (q : Fin 128) :
    val_main_v14 (F := Ideal) x0 x1 x2 x3 x4 (ix2 p q) = Cert.RowNorm.act (agg x0 x1 x2 x3) (wts x4) p q := by
  rw [val_main_v14_apply, val_main_v13_apply, val_main_call0_v0_apply, val_main_call0_cst_apply]
  have hl : ∀ k : Fin 128, lidx_main_v13 (ix2 p q) k = ix2 p k := fun k =>
    funext fun c => Fin.ext (by match c with | ⟨0, _⟩ => rfl | ⟨1, _⟩ => rfl)
  have hr : ∀ k : Fin 128, ridx_main_v13 (ix2 p q) k = ix2 k q := fun k =>
    funext fun c => Fin.ext (by match c with | ⟨0, _⟩ => rfl | ⟨1, _⟩ => rfl)
  simp only [hl, hr]
  rfl

/-- The result (stage 22) at (p, q). -/
theorem result_apply (p : Fin 50000) (q : Fin 128) :
    val_main_v22 (F := Ideal) x0 x1 x2 x3 x4 (ix2 p q) = Cert.RowNorm.normed (agg x0 x1 x2 x3) (wts x4) (ix2 p q) := by
  rw [val_main_v22_apply, val_main_v21_apply, val_main_v20_apply, val_main_v19_apply, val_main_cst_2_apply,
    val_main_v18_apply, val_main_v17_apply, val_main_v16_apply, val_main_cst_1_apply]
  have hi : ∀ k : Fin 128, idx_main_v16 (idx_main_v17 (idx_main_v21 (ix2 p q))) k = ix2 p k := fun k =>
    funext fun c => Fin.ext (by match c with | ⟨0, _⟩ => rfl | ⟨1, _⟩ => rfl)
  simp only [hi, val_main_v15_apply, clipped_apply]
  simp only [Ideal.hostDivf_def, Ideal.maximumf_def, Ideal.hostUnary_sqrt_def, Ideal.mulf_def, Ideal.ofBits_def,
    Ideal.ofBits_zero_f32, zero_add]
  rfl

/-- THE REFERENCE'S RESULT as one function of the aggregated features and the weights. -/
theorem result_eq :
    val_main_v22 (F := Ideal) x0 x1 x2 x3 x4 = Cert.RowNorm.normed (agg x0 x1 x2 x3) (wts x4) := by
  funext i
  obtain ⟨p, q, rfl⟩ : ∃ (p : Fin 50000) (q : Fin 128), i = ix2 p q := ⟨i 0, i 1, eq_ix2 i⟩
  exact result_apply x0 x1 x2 x3 x4 p q

end Cert.ReferenceIdeal.RefValue

end
-- ==== Proof.Bridge.lean ====
/-
  The two programs aggregate the features the same way.

  Before its region the kernel's program gathers the source rows of the 600000 edges (an index below zero wrapped by
  adding 50000), scales each by its edge's value and scatter-adds them into the target rows of a zero array. The
  reference begins with the same sixteen operations on the same arguments. So the array the region is launched on is
  the reference's aggregated array, operation for operation; and the weights reach the region as launched.
-/
import proofs.«150743_j39771397161525_1_alg».proof.Proof.KernelArray
import proofs.«150743_j39771397161525_1_alg».proof.Proof.RefValue
import Idealize.ShloMosaic.Lib.StableHlo.Run

noncomputable section

namespace Cert.Bridge

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The aggregated features the region finds are the reference's, of the kernel program's own arguments. -/
theorem agg_eq (c : Dev nD) :
    Cert.KernelIdeal.Whole.agg m c
      = Cert.ReferenceIdeal.RefValue.agg (m ((c : Thread nD τ).loc main_arg0)) (m ((c : Thread nD τ).loc main_arg1))
          (m ((c : Thread nD τ).loc main_arg2)) (m ((c : Thread nD τ).loc main_arg3)) := by
  show (V m c main_v12 : (⟨2, ![50000, 128]⟩ : Shape).Idx → EReal) = _
  dsimp only [V, hostOps0]
  after_results
  rfl

/-- The weights the region finds are the argument. -/
theorem wts_eq (c : Dev nD) :
    Cert.KernelIdeal.Whole.wts m c = Cert.ReferenceIdeal.RefValue.wts (m ((c : Thread nD τ).loc main_arg4)) :=
  V_main_arg4 m c

/-- THE KERNEL'S RESULT in the reference's terms: the clipped, row-normalised product of the reference's aggregated
    features and the weights, of the kernel program's own arguments. -/
theorem result_eq (c : Dev nD) :
    Cert.RowNorm.normed (Cert.KernelIdeal.Whole.agg m c) (Cert.KernelIdeal.Whole.wts m c)
      = Cert.ReferenceIdeal.Read.val_main_v22 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [Cert.ReferenceIdeal.RefValue.result_eq, agg_eq m c, wts_eq m c]

end Cert.Bridge

end
-- ==== Proof.lean ====
/-
  A graph layer: aggregate the neighbours' features, transform, clip, normalise each row.

  Both programs first build the aggregated features agg (for every edge e, row cols[e] of feat scaled by vals[e] is added
  into row rows[e] of a zero array) by the same gather and scatter-add, and both then compute, for the weight matrix W,
      out (p, q) = y (p, q) / max (sqrt (∑ n, y (p, n)²)) ε,     y (p, q) = max (∑ κ, agg (p, κ) · W (κ, q)) 0,
  with the same float word for ε. They differ only in how: the reference takes the product of the whole 50000-row array at
  once; the kernel runs over 25 bands of 2000 rows, narrowing the operands of its product to bf16 first.

  Over the extended reals the narrowing changes nothing, a product accumulated from zero and the whole product are the
  same sum over the contracted axis, and a lane reduction from zero and the host's sum from zero are the same sum over
  the row. The formula reads agg through row p alone, so a band of rows computed by itself is that band of the whole
  result; the 25 bands tile the rows. No law of arithmetic beyond 0 + x = x is used, so finiteness of the inputs is not
  needed for the values: the precondition is only carried.

  The frames of the two kernel programs and their run with the result array named are generated modules, and so are the
  reference's run and its stage-by-stage reading; the idealization rewrote nothing.
-/
import proofs.«150743_j39771397161525_1_alg».proof.Defs
import proofs.«150743_j39771397161525_1_alg».proof.Proof.Gen.Kernel
import proofs.«150743_j39771397161525_1_alg».proof.Proof.Gen.Kernel.Skeleton
import proofs.«150743_j39771397161525_1_alg».proof.Proof.Gen.Kernel.Launch
import proofs.«150743_j39771397161525_1_alg».proof.Proof.Gen.Kernel.Points
import proofs.«150743_j39771397161525_1_alg».proof.Proof.Gen.Kernel.Frame
import proofs.«150743_j39771397161525_1_alg».proof.Proof.Gen.KernelIdeal
import proofs.«150743_j39771397161525_1_alg».proof.Proof.Gen.KernelIdeal.Skeleton
import proofs.«150743_j39771397161525_1_alg».proof.Proof.Gen.KernelIdeal.Launch
import proofs.«150743_j39771397161525_1_alg».proof.Proof.Gen.KernelIdeal.Points
import proofs.«150743_j39771397161525_1_alg».proof.Proof.Gen.KernelIdeal.Frame
import proofs.«150743_j39771397161525_1_alg».proof.Proof.Gen.ReferenceIdeal
import proofs.«150743_j39771397161525_1_alg».proof.Proof.Gen.Pre_finite_inputs
import proofs.«150743_j39771397161525_1_alg».proof.Proof.Gen.KernelIdeal.Value
import proofs.«150743_j39771397161525_1_alg».proof.Proof.Gen.ReferenceIdeal.Run
import proofs.«150743_j39771397161525_1_alg».proof.Proof.Gen.ReferenceIdeal.Read
import proofs.«150743_j39771397161525_1_alg».proof.Proof.Bridge
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- And the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end with the clipped, row-normalised product of the aggregated features
    and the weights: the kernel band by band, the reference whole. -/
theorem algebraic : Cert.algebraic_KernelIdeal_ReferenceIdeal := by
  intro m ρ m' ρ' _ hagree
  refine ⟨fun c => Cert.RowNorm.normed (Cert.KernelIdeal.Whole.agg m c) (Cert.KernelIdeal.Whole.wts m c),
    Cert.KernelIdeal.Whole.run m ρ, ?_⟩
  refine (θ_run Cert.ReferenceIdeal.defs _ _).mono
    (fun _ h c => ⟨(h c).1.trans ((Cert.ReferenceIdeal.Read.val_main_v22_eq _ _ _ _ _).trans ?_), (h c).2⟩)
    (Cert.ReferenceIdeal.Value.run (F := Ideal) m' ρ')
  rw [(hagree c).1, (hagree c).2.1, (hagree c).2.2.1, (hagree c).2.2.2.1, (hagree c).2.2.2.2]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
